-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x1 : Shape := ⟨2, ![500000, 1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_v32 : IVec S_ 1) (main_c_12 : IVec S_ 32) : IVec S_ 1 :=
  let main_v33 : IVec S2x500000 32 := broadcastInDim S2x500000 ![] bcast_S_S2x500000 main_c_12
  let main_v34 : IVec S2x500000 1 := cmpi .slt main_arg1 main_v33
  let main_c_13 : IVec S_ 1 := constantI S_ 1 1#1
  let main_v35 : IVec S_ 1 := (fun x v => Host.reduce IntOp.andi x v reducesTo_S2x500000_S_d0_1 h_S_) main_v34 main_c_13
  let main_v36 : IVec S_ 1 := andi main_v32 main_v35
  main_v36

def fn_part1 {F : FTy → Type} [FloatOps F] (main_arg1 : IVec S2x500000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg1 main_v29
  let main_c_11 : IVec S_ 1 := constantI S_ 1 1#1
  let main_v31 : IVec S_ 1 := (fun x v => Host.reduce IntOp.andi x v reducesTo_S2x500000_S_d0_1 h_S_) main_v30 main_c_11
  let main_v32 : IVec S_ 1 := andi main_v28 main_v31
  let main_c_12 : IVec S_ 32 := constantI S_ 32 50000#32
  fn_part2 (F := F) main_arg1 main_v32 main_c_12

def fn {F : FTy → Type} [FloatOps F] (main_arg0 : FVec F S50000x128 .f32) (main_arg1 : IVec S2x500000 32) (main_arg2 : FVec F S500000x1 .f32) (main_arg3 : FVec F S256x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x1 .f32 := Host.absf main_arg2
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S2x500000 : Shape := ⟨2, ![2, 500000]⟩
abbrev S500000x1 : Shape := ⟨2, ![500000, 1]⟩
abbrev S256x128 : Shape := ⟨2, ![256, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S1 : Shape := ⟨1, ![1]⟩
abbrev S1x1 : Shape := ⟨2, ![1, 1]⟩
abbrev S500000x128 : Shape := ⟨2, ![500000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 67
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x128, .f32⟩
  | .hbm, ⟨30, _⟩ => ⟨S500000x128, .i1⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x128, .f32⟩
  | .hbm, ⟨53, _⟩ => ⟨S500000x128, .i1⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S500000x128, .f32⟩
  | .hbm, ⟨62, _⟩ => ⟨S_, .f32⟩
  | .hbm, ⟨63, _⟩ => ⟨S50000x128, .f32⟩
  | .hbm, ⟨64, _⟩ => ⟨S500000x1, .i32⟩
  | .hbm, ⟨65, _⟩ => ⟨S50000x128, .f32⟩
  | .hbm, ⟨66, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_cst : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  broadcasts_S4000x1_S4000x128 : S4000x1.Broadcasts S4000x128
  bcast_S_S50000x128 : S_.BroadcastsInDim S50000x128 (![] : Fin 0 → Fin S50000x128.rank)
  gather_S50000x128_S500000x1_S500000x128_1_0_n_n_0_1_1128_wf : GatherDims.WF S50000x128 S500000x1 S500000x128 [1] [0] [] [0] [] 1 ![1, 128]
  dot_S4000x128_S128x128_S4000x128_1_0_0_1_n_n_wf : DotDims.WF S4000x128 S128x128 S4000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S500000x128.size a
  hwx0_8 : ∀ i : grid0.Coords, EltTy.bits .f32 = 32 ∨ (Rect.block (s := S500000x128) S4000x128.size (cc0_transform_8 i) (hinb0_8 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x1 : Shape := ⟨2, ![500000, 1]⟩
abbrev S256x128 : Shape := ⟨2, ![256, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x128 : Shape := ⟨2, ![500000, 128]⟩
abbrev S500000x256 : Shape := ⟨2, ![500000, 256]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x256, .f32⟩
  | .hbm, ⟨30, _⟩ => ⟨S500000x128, .f32⟩
  | .hbm, ⟨31, _⟩ => ⟨S1x128, .f32⟩
  | .hbm, ⟨32, _⟩ => ⟨S500000x128, .f32⟩
  | .hbm, ⟨33, _⟩ => ⟨S500000x128, .f32⟩
  | .hbm, ⟨34, _⟩ => ⟨S_, .f32⟩
  | .hbm, ⟨35, _⟩ => ⟨S500000x128, .f32⟩
  | .hbm, ⟨36, _⟩ => ⟨S500000x128, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S50000x128, .f32⟩
  | .hbm, ⟨45, _⟩ => ⟨S500000x1, .i32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Spec.lean ====
/-
  The message a graph edge sends, as one function of arrays.

  An edge e carries two feature rows xs e and xd e (those of its source and destination node) and a weight ea e.
  Its message is a two-layer perceptron of the joined row, scaled by the weight:

      hidden e k = max (Σ_i xs e i · W1a i k + Σ_i xd e i · W1b i k + b1 k) 0
      msg e q    = (Σ_k hidden e k · W2 k q + b2 q) · ea e

  with W1a the upper and W1b the lower 128 rows of the first layer's 256 × 128 matrix: the product of the joined
  row [xs e, xd e] with the whole matrix is the sum of the two half products, by splitting the sum over 256 terms.
  Everything is read on the extended reals; only commutativity and associativity of the sum are used, so no finiteness.
-/
import Idealize.ShloMosaic.PureOps.Ideal.Laws
import Idealize.ShloMosaic.Lib.ValueIdx

noncomputable section

namespace Cert.EdgeMlp

open Idealize.ShloMosaic Idealize.ShloMosaic.ValueIdx

/-- The first layer at edge `e`, hidden unit `k`, after the rectifier. `z` is the rectifier's floor (the zero word). -/
def hidden {E : Nat} (z : EReal) (xs xd : FVec Ideal ⟨2, ![E, 128]⟩ .f32) (W1a W1b : FVec Ideal ⟨2, ![128, 128]⟩ .f32)
    (b1r : FVec Ideal ⟨2, ![1, 128]⟩ .f32) (e : Fin E) (k : Fin 128) : EReal :=
  max ((∑ i : Fin 128, xs (ix2 e i) * W1a (ix2 i k) + ∑ i : Fin 128, xd (ix2 e i) * W1b (ix2 i k)) + b1r (ix2 (0 : Fin 1) k)) z

/-- The edges' messages, an [E, 128] array. -/
def msg {E : Nat} (z : EReal) (xs xd : FVec Ideal ⟨2, ![E, 128]⟩ .f32) (ea : FVec Ideal ⟨2, ![E, 1]⟩ .f32)
    (W1a W1b : FVec Ideal ⟨2, ![128, 128]⟩ .f32) (b1r : FVec Ideal ⟨2, ![1, 128]⟩ .f32)
    (W2 : FVec Ideal ⟨2, ![128, 128]⟩ .f32) (b2r : FVec Ideal ⟨2, ![1, 128]⟩ .f32) : FVec Ideal ⟨2, ![E, 128]⟩ .f32 :=
  fun j => ((∑ k : Fin 128, hidden z xs xd W1a W1b b1r (j 0) k * W2 (ix2 k (j 1))) + b2r (ix2 (0 : Fin 1) (j 1)))
    * ea (ix2 (j 0) (0 : Fin 1))

theorem msg_apply {E : Nat} (z : EReal) (xs xd : FVec Ideal ⟨2, ![E, 128]⟩ .f32) (ea : FVec Ideal ⟨2, ![E, 1]⟩ .f32)
    (W1a W1b : FVec Ideal ⟨2, ![128, 128]⟩ .f32) (b1r : FVec Ideal ⟨2, ![1, 128]⟩ .f32)
    (W2 : FVec Ideal ⟨2, ![128, 128]⟩ .f32) (b2r : FVec Ideal ⟨2, ![1, 128]⟩ .f32) (e : Fin E) (q : Fin 128) :
    msg z xs xd ea W1a W1b b1r W2 b2r (ix2 e q)
      = ((∑ k : Fin 128, hidden z xs xd W1a W1b b1r e k * W2 (ix2 k q)) + b2r (ix2 (0 : Fin 1) q)) * ea (ix2 e (0 : Fin 1)) := rfl

/-- A sum over 256 terms is the sum over the first 128 plus the sum over the last 128. -/
theorem sum_split (f : Fin 256 → EReal) :
    ∑ k : Fin 256, f k = ∑ i : Fin 128, f ⟨i.val, by omega⟩ + ∑ i : Fin 128, f ⟨128 + i.val, by omega⟩ := by
  exact Fin.sum_univ_add (a := 128) (b := 128) f

/-- A block of rows of the messages is the messages of the blocks of rows: edge `e` of the block that starts at row
    `o` is edge `o + e`, and the message of an edge reads only that edge's rows. -/
theorem msg_block {E B : Nat} (z : EReal) (xs xd : FVec Ideal ⟨2, ![E, 128]⟩ .f32) (ea : FVec Ideal ⟨2, ![E, 1]⟩ .f32)
    (xs' xd' : FVec Ideal ⟨2, ![B, 128]⟩ .f32) (ea' : FVec Ideal ⟨2, ![B, 1]⟩ .f32)
    (W1a W1b : FVec Ideal ⟨2, ![128, 128]⟩ .f32) (b1r : FVec Ideal ⟨2, ![1, 128]⟩ .f32)
    (W2 : FVec Ideal ⟨2, ![128, 128]⟩ .f32) (b2r : FVec Ideal ⟨2, ![1, 128]⟩ .f32)
    (e' : Fin B) (e : Fin E)
    (hxs : ∀ i : Fin 128, xs' (ix2 e' i) = xs (ix2 e i)) (hxd : ∀ i : Fin 128, xd' (ix2 e' i) = xd (ix2 e i))
    (hea : ea' (ix2 e' (0 : Fin 1)) = ea (ix2 e (0 : Fin 1))) (q : Fin 128) :
    msg z xs' xd' ea' W1a W1b b1r W2 b2r (ix2 e' q) = msg z xs xd ea W1a W1b b1r W2 b2r (ix2 e q) := by
  rw [msg_apply, msg_apply, hea]
  unfold hidden
  simp only [hxs, hxd]

end Cert.EdgeMlp

end
-- ==== Proof.KernelBlocks.lean ====
/-
  The blocks the kernel's grid points read.

  The grid has 125 points. At point t the two gathered feature arrays and the edge weights are read through their
  t-th block of 4000 rows — row p of the block is row 4000 t + p of the array — while the weight matrices and bias
  rows are read whole at every point.
-/
import proofs.«414308_j41137196761318_2_alg».proof.Proof.Gen.KernelIdeal.Frame
import proofs.«414308_j41137196761318_2_alg».proof.Proof.Spec
import proofs.«414308_j41137196761318_2_alg».proof.Proof.Gen.KernelIdeal.Skeleton
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The arrays the region stages, as it finds them, each at its literal type. -/
abbrev xsArr (c : Dev nD) : FVec Ideal S500000x128 .f32 := V m c main_v4
abbrev xdArr (c : Dev nD) : FVec Ideal S500000x128 .f32 := V m c main_v5
abbrev eaArr (c : Dev nD) : FVec Ideal S500000x1 .f32 := V m c main_arg2
abbrev w1aArr (c : Dev nD) : FVec Ideal S128x128 .f32 := V m c main_v6
abbrev w1bArr (c : Dev nD) : FVec Ideal S128x128 .f32 := V m c main_v7
abbrev b1Arr (c : Dev nD) : FVec Ideal S1x128 .f32 := V m c main_v8
abbrev w2Arr (c : Dev nD) : FVec Ideal S128x128 .f32 := V m c main_arg5
abbrev b2Arr (c : Dev nD) : FVec Ideal S1x128 .f32 := V m c main_v9

/-- The messages of all 500000 edges, from the staged arrays. -/
def msgArr (c : Dev nD) : FVec Ideal S500000x128 .f32 :=
  Cert.EdgeMlp.msg (E := 500000) (Ideal.ofBits .f32 0x00000000#32) (xsArr m c) (xdArr m c) (eaArr m c) (w1aArr m c)
    (w1bArr m c) (b1Arr m c) (w2Arr m c) (b2Arr m c)

/-- The index maps over the grid: the three edge windows and the output move one block of 4000 rows per point, the
    weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A block of the source rows at point `t`, read at (p, i): row `4000 t + p` of the array. -/
theorem xs_blk (c : Dev nD) (t : Fin cfg0.N) (p : Fin 4000) (i : Fin 128) (e : Fin 500000) (he : e.val = t.val * 4000 + p.val) :
    (iblk m c 0 t : FVec Ideal S4000x128 .f32) (ix2 p i) = xsArr m c (ix2 e i) := by
  obtain ⟨h0, h1, -⟩ := idx_facts t
  unfold iblk
  rw [View.read_apply]
  show V m c main_v4 _ = V m c main_v4 _
  congr 1
  funext a
  apply Fin.ext
  match a with
  | ⟨0, _⟩ => show win0_0.index t 0 * 4000 + 1 * p.val = e.val; rw [h0, he]; omega
  | ⟨1, _⟩ => show win0_0.index t 1 * 128 + 1 * i.val = i.val; rw [h1]; omega

/-- A block of the destination rows at point `t`, read at (p, i): row `4000 t + p` of the array. -/
theorem xd_blk (c : Dev nD) (t : Fin cfg0.N) (p : Fin 4000) (i : Fin 128) (e : Fin 500000) (he : e.val = t.val * 4000 + p.val) :
    (iblk m c 1 t : FVec Ideal S4000x128 .f32) (ix2 p i) = xdArr m c (ix2 e i) := by
  obtain ⟨-, -, h0, h1, -⟩ := idx_facts t
  unfold iblk
  rw [View.read_apply]
  show V m c main_v5 _ = V m c main_v5 _
  congr 1
  funext a
  apply Fin.ext
  match a with
  | ⟨0, _⟩ => show win0_1.index t 0 * 4000 + 1 * p.val = e.val; rw [h0, he]; omega
  | ⟨1, _⟩ => show win0_1.index t 1 * 128 + 1 * i.val = i.val; rw [h1]; omega

/-- A block of the edge weights at point `t`, read at (p, 0): the weight of edge `4000 t + p`. -/
theorem ea_blk (c : Dev nD) (t : Fin cfg0.N) (p : Fin 4000) (e : Fin 500000) (he : e.val = t.val * 4000 + p.val) :
    (iblk m c 2 t : FVec Ideal S4000x1 .f32) (ix2 p (0 : Fin 1)) = eaArr m c (ix2 e (0 : Fin 1)) := by
  obtain ⟨-, -, -, -, h0, h1, -⟩ := idx_facts t
  unfold iblk
  rw [View.read_apply]
  show V m c main_arg2 _ = V m c main_arg2 _
  congr 1
  funext a
  apply Fin.ext
  match a with
  | ⟨0, _⟩ => show win0_2.index t 0 * 4000 + 1 * p.val = e.val; rw [h0, he]; omega
  | ⟨1, _⟩ => show win0_2.index t 1 * 1 + 1 * 0 = 0; rw [h1]

/-- The upper half of the first-layer matrix is read whole at every point. -/
theorem w1a_blk (c : Dev nD) (t : Fin cfg0.N) : (iblk m c 3 t : FVec Ideal S128x128 .f32) = w1aArr m c := by
  obtain ⟨-, -, -, -, -, -, h0, h1, -⟩ := idx_facts t
  funext y
  unfold iblk
  rw [View.read_apply]
  show V m c main_v6 _ = V m c main_v6 _
  congr 1
  funext a
  apply Fin.ext
  match a with
  | ⟨0, _⟩ => show win0_3.index t 0 * 128 + 1 * (y 0).val = (y 0).val; rw [h0]; omega
  | ⟨1, _⟩ => show win0_3.index t 1 * 128 + 1 * (y 1).val = (y 1).val; rw [h1]; omega

/-- The lower half of the first-layer matrix is read whole at every point. -/
theorem w1b_blk (c : Dev nD) (t : Fin cfg0.N) : (iblk m c 4 t : FVec Ideal S128x128 .f32) = w1bArr m c := by
  obtain ⟨-, -, -, -, -, -, -, -, h0, h1, -⟩ := idx_facts t
  funext y
  unfold iblk
  rw [View.read_apply]
  show V m c main_v7 _ = V m c main_v7 _
  congr 1
  funext a
  apply Fin.ext
  match a with
  | ⟨0, _⟩ => show win0_4.index t 0 * 128 + 1 * (y 0).val = (y 0).val; rw [h0]; omega
  | ⟨1, _⟩ => show win0_4.index t 1 * 128 + 1 * (y 1).val = (y 1).val; rw [h1]; omega

/-- The first bias row is read whole at every point. -/
theorem b1_blk (c : Dev nD) (t : Fin cfg0.N) : (iblk m c 5 t : FVec Ideal S1x128 .f32) = b1Arr m c := by
  obtain ⟨-, -, -, -, -, -, -, -, -, -, h0, h1, -⟩ := idx_facts t
  funext y
  unfold iblk
  rw [View.read_apply]
  show V m c main_v8 _ = V m c main_v8 _
  congr 1
  funext a
  apply Fin.ext
  match a with
  | ⟨0, _⟩ => show win0_5.index t 0 * 1 + 1 * (y 0).val = (y 0).val; rw [h0]; omega
  | ⟨1, _⟩ => show win0_5.index t 1 * 128 + 1 * (y 1).val = (y 1).val; rw [h1]; omega

/-- The second-layer matrix is read whole at every point. -/
theorem w2_blk (c : Dev nD) (t : Fin cfg0.N) : (iblk m c 6 t : FVec Ideal S128x128 .f32) = w2Arr m c := by
  obtain ⟨-, -, -, -, -, -, -, -, -, -, -, -, h0, h1, -⟩ := idx_facts t
  funext y
  unfold iblk
  rw [View.read_apply]
  show V m c main_arg5 _ = V m c main_arg5 _
  congr 1
  funext a
  apply Fin.ext
  match a with
  | ⟨0, _⟩ => show win0_6.index t 0 * 128 + 1 * (y 0).val = (y 0).val; rw [h0]; omega
  | ⟨1, _⟩ => show win0_6.index t 1 * 128 + 1 * (y 1).val = (y 1).val; rw [h1]; omega

/-- The second bias row is read whole at every point. -/
theorem b2_blk (c : Dev nD) (t : Fin cfg0.N) : (iblk m c 7 t : FVec Ideal S1x128 .f32) = b2Arr m c := by
  obtain ⟨-, -, -, -, -, -, -, -, -, -, -, -, -, -, h0, h1, -⟩ := idx_facts t
  funext y
  unfold iblk
  rw [View.read_apply]
  show V m c main_v9 _ = V m c main_v9 _
  congr 1
  funext a
  apply Fin.ext
  match a with
  | ⟨0, _⟩ => show win0_7.index t 0 * 1 + 1 * (y 0).val = (y 0).val; rw [h0]; omega
  | ⟨1, _⟩ => show win0_7.index t 1 * 128 + 1 * (y 1).val = (y 1).val; rw [h1]; omega

end Cert.KernelIdeal.KVal

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«414308_j41137196761318_2_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Body.lean ====
/-
  What one grid point of the kernel stores: the messages of its 4000 edges.

  The body loads the point's blocks of the two gathered feature arrays and of the edge weights, and the whole weight
  matrices and bias rows; it forms xs·W1a + xd·W1b + b1, takes the maximum with zero, multiplies by W2, adds b2 and
  scales each row by its edge weight. Read at (p, q) that is Cert.EdgeMlp.msg at 4000 edges: each matrix product into
  the zero splat is the sum over k of the entries' products, a bias row broadcast over the rows reads its one row, and
  the weight column broadcast over the columns reads its one column.
-/
import proofs.«414308_j41137196761318_2_alg».proof.Proof.Gen.KernelIdeal.Skeleton
import proofs.«414308_j41137196761318_2_alg».proof.Proof.Spec
import proofs.«414308_j41137196761318_2_alg».proof.Proof.LibDotAt
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- A matrix product of the body, into the zero splat, read at (p, q): the sum over k of the entries' products. -/
theorem mm_at (l : FVec Ideal S4000x128 .f32) (r : FVec Ideal S128x128 .f32) (p : Fin 4000) (q : Fin 128) :
    matmul dot_S4000x128_S128x128_S4000x128_1_0_0_1_n_n (some .fp32) l r (constant S4000x128 .f32 0x00000000#32) (ix2 p q)
      = ∑ k : Fin 128, l (ix2 p k) * r (ix2 k q) :=
  DotAt.matmul_plain dot_S4000x128_S128x128_S4000x128_1_0_0_1_n_n rfl rfl rfl rfl rfl rfl rfl rfl (some .fp32) l r p q

/-- A bias row broadcast over the 4000 rows reads its one row. -/
theorem row_at (v : FVec Ideal S1x128 .f32) (p : Fin 4000) (q : Fin 128) :
    broadcastTo S4000x128 v broadcasts_S1x128_S4000x128 (ix2 p q) = v (ix2 (0 : Fin 1) q) :=
  broadcastTo_1b_ab_apply v broadcasts_S1x128_S4000x128 p q

/-- The weight column broadcast over the 128 columns reads its one column. -/
theorem col_at (v : FVec Ideal S4000x1 .f32) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ => rfl
  | ⟨1, _⟩ => rfl

/-- The stored value of a grid point is the message function of the point's blocks. -/
theorem pay_eq (xs xd : FVec Ideal S4000x128 .f32) (W1a W1b W2 : FVec Ideal S128x128 .f32)
    (b1r b2r : FVec Ideal S1x128 .f32) (ea : FVec Ideal S4000x1 .f32) :
    k0_pay1 (F := Ideal) xs xd W1a W1b W2 b1r b2r ea
      = Cert.EdgeMlp.msg (E := 4000) (Ideal.ofBits .f32 0x00000000#32) xs xd ea W1a W1b b1r W2 b2r := by
  funext j
  obtain ⟨p, q, rfl⟩ : ∃ (p : Fin 4000) (q : Fin 128), j = ix2 p q := ⟨j 0, j 1, eq_ix2 j⟩
  rw [Cert.EdgeMlp.msg_apply]
  unfold k0_pay1
  -- the casts to the same shape are the identity; the outer product, sum and scaling are pointwise
  simp only [shapeCast_self]
  rw [mulf_apply, addf_apply, mm_at, row_at, col_at]
  -- both sides are (Σ_k _ * W2 (k, q) + b2 q) * ea p: compare the left factors of the sum term by term
  refine congrArg (fun t => (t + b2r (ix2 (0 : Fin 1) q)) * ea (ix2 p (0 : Fin 1))) (Finset.sum_congr rfl fun k _ => ?_)
  -- the rectified first layer read at (p, k) is hidden p k
  rw [maximumf_apply, addf_apply, addf_apply, mm_at, mm_at, row_at, broadcast_apply]
  rfl

end Cert.KernelIdeal.Body

end
-- ==== Proof.KernelValue.lean ====
/-
  What the kernel's region leaves in its result array: the messages of all 500000 edges.

  Point t writes back block t of the result: 4000 rows, each the message of one edge computed from the point's blocks.
  Row p of block t is edge 4000 t + p, and a message reads only its own edge's rows, so the block is block t of the
  message array of the whole staged arrays. The 125 blocks tile the 500000 rows (row r lies in block r / 4000), so the
  result array ends as that message array.
-/
import proofs.«414308_j41137196761318_2_alg».proof.Proof.KernelBlocks
import proofs.«414308_j41137196761318_2_alg».proof.Proof.Body

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ) (ρ : Dev nD → PrngReg)

/-- What point `t` writes back is block `t` of the message array. -/
theorem flushed_eq (c : Dev nD) (t : Fin cfg0.N) :
    (dats m 0 c).flushed 8 t = ((cfg0.win 8).blk t).view.read (Elt Ideal) (msgArr m c) := by
  show (cfg0.win 8).cut (grid0.coords t) ((dats m 0 c).after 8 t) = _
  rw [after0_8]
  unfold out0_8
  rw [View.canon_unit_zero hz]
  simp only [View.ld_unit_zero (S := S4000x128) hz, View.ld_unit_zero (S := S128x128) hz, View.ld_unit_zero (S := S1x128) hz,
    View.ld_unit_zero (S := S4000x1) hz]
  funext y
  obtain ⟨p, q, rfl⟩ : ∃ (p : Fin 4000) (q : Fin 128), y = ix2 p q := ⟨y 0, y 1, eq_ix2 y⟩
  have hN : cfg0.N = 125 := N_0
  have ht : t.val < 125 := hN ▸ t.isLt
  -- row p of block t is edge 4000 t + p
  let e : Fin 500000 := ⟨t.val * 4000 + p.val, by have := p.isLt; omega⟩
  obtain ⟨-, -, -, -, -, -, -, -, -, -, -, -, -, -, -, -, h0, h1⟩ := idx_facts t
  have he : ((cfg0.win 8).blk t).view.emb (ix2 p q) = ix2 e q := funext fun a => Fin.ext (by
    match a with
    | ⟨0, _⟩ => show win0_8.index t 0 * 4000 + 1 * p.val = t.val * 4000 + p.val; rw [h0]; omega
    | ⟨1, _⟩ => show win0_8.index t 1 * 128 + 1 * q.val = q.val; rw [h1]; omega)
  show k0_pay1 (F := Ideal) (iblk m c 0 t) (iblk m c 1 t) (iblk m c 3 t) (iblk m c 4 t) (iblk m c 6 t) (iblk m c 5 t) (iblk m c 7 t)
      (iblk m c 2 t) (ix2 p q) = msgArr m c (((cfg0.win 8).blk t).view.emb (ix2 p q))
  rw [he]
  refine (congrFun (Body.pay_eq (iblk m c 0 t) (iblk m c 1 t) (iblk m c 3 t) (iblk m c 4 t) (iblk m c 6 t) (iblk m c 5 t)
    (iblk m c 7 t) (iblk m c 2 t)) (ix2 p q)).trans ?_
  rw [w1a_blk m c t, w1b_blk m c t, w2_blk m c t, b1_blk m c t, b2_blk m c t]
  unfold msgArr
  exact Cert.EdgeMlp.msg_block _ (xsArr m c) (xdArr m c) (eaArr m c) (iblk m c 0 t) (iblk m c 1 t) (iblk m c 2 t)
    (w1aArr m c) (w1bArr m c) (b1Arr m c) (w2Arr m c) (b2Arr m c) p e
    (fun i => xs_blk m c t p i e rfl) (fun i => xd_blk m c t p i e rfl) (ea_blk m c t p e rfl) q

/-- A row-column index is in point `t`'s block iff each coordinate is in the block's range on its axis. -/
theorem mem_blk (t : Fin cfg0.N) (i : S500000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v10).slice (win0_8.rect t)).set ↔ _
  rw [View.set_slice_whole, Rect.mem_set_unit]
  exact Iff.rfl

/-- The result array after the region: the message array. Row r lies in the block of point r / 4000. -/
theorem final (c : Dev nD) : (dats m 0 c).arrAt 8 cfg0.N = msgArr m c :=
  (dats m 0 c).arrAt_eq_of_cover 8 (msgArr m c) (fun t _ => flushed_eq m c t) fun i => by
    have hi0 : ((i : S500000x128.Idx) 0).val < 500000 := ((i : S500000x128.Idx) 0).isLt
    have hi1 : ((i : S500000x128.Idx) 1).val < 128 := ((i : S500000x128.Idx) 1).isLt
    have hN : cfg0.N = 125 := N_0
    let t : Fin cfg0.N := ⟨((i : S500000x128.Idx) 0).val / 4000, by rw [hN]; omega⟩
    obtain ⟨-, -, -, -, -, -, -, -, -, -, -, -, -, -, -, -, h0, h1⟩ := idx_facts t
    refine ⟨t, flush0_8 t, ?_⟩
    rw [mem_blk]
    intro a
    match a with
    | ⟨0, _⟩ =>
      show win0_8.index t 0 * 4000 ≤ ((i : S500000x128.Idx) 0).val ∧ ((i : S500000x128.Idx) 0).val < win0_8.index t 0 * 4000 + 4000
      rw [h0]
      show ((i : S500000x128.Idx) 0).val / 4000 * 4000 ≤ ((i : S500000x128.Idx) 0).val
        ∧ ((i : S500000x128.Idx) 0).val < ((i : S500000x128.Idx) 0).val / 4000 * 4000 + 4000
      omega
    | ⟨1, _⟩ =>
      show win0_8.index t 1 * 128 ≤ ((i : S500000x128.Idx) 1).val ∧ ((i : S500000x128.Idx) 1).val < win0_8.index t 1 * 128 + 128
      rw [h1]
      omega

end Cert.KernelIdeal.KVal

end
-- ==== Proof.KernelIdx.lean ====
/-
  The two rows of the edge-index array, as vectors.

  The program cuts row 0 (the edges' source nodes) and row 1 (their destination nodes) out of the [2, 500000] index
  array and drops the unit axis. Entry e of row r is the array's entry (r, e).
-/
import proofs.«414308_j41137196761318_2_alg».proof.Proof.Gen.KernelIdeal
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- Row 0 of the edge-index array: the source nodes. -/
abbrev idxRow0 (c : Dev nD) : IVec S500000 32 :=
  shapeCast _ (extractStridedSlice S1x500000 ![0, 0] (m ((c : Thread nD τ).loc main_arg1)) slices_S2x500000_S1x500000_0_0) shapeCasts_S1x500000_S500000
/-- Row 1 of the edge-index array: the destination nodes. -/
abbrev idxRow1 (c : Dev nD) : IVec S500000 32 :=
  shapeCast _ (extractStridedSlice S1x500000 ![1, 0] (m ((c : Thread nD τ).loc main_arg1)) slices_S2x500000_S1x500000_1_0) shapeCasts_S1x500000_S500000

theorem idxRow0_apply (c : Dev nD) (e : Fin 500000) :
    idxRow0 m c (ix1 e) = (m ((c : Thread nD τ).loc main_arg1) : IVec S2x500000 32) (ix2 (0 : Fin 2) e) := by
  refine (shapeCast_1a_a_apply _ shapeCasts_S1x500000_S500000 e).trans ?_
  exact slice2_axis0_apply 0 _ slices_S2x500000_S1x500000_0_0 (0 : Fin 1) e (0 : Fin 2) rfl

theorem idxRow1_apply (c : Dev nD) (e : Fin 500000) :
    idxRow1 m c (ix1 e) = (m ((c : Thread nD τ).loc main_arg1) : IVec S2x500000 32) (ix2 (1 : Fin 2) e) := by
  refine (shapeCast_1a_a_apply _ shapeCasts_S1x500000_S500000 e).trans ?_
  exact slice2_axis0_apply 1 _ slices_S2x500000_S1x500000_1_0 (0 : Fin 1) e (1 : Fin 2) rfl

end Cert.KernelIdeal.KHost

end
-- ==== Proof.Take.lean ====
/-
  A take with fill, at indices in range, is the plain gather.

  jnp.take(x, idx, axis=0) wraps a negative index by adding the extent, gathers the rows at the wrapped indices
  (clamped), and then replaces every row whose wrapped index lies outside [0, 49999] by a fill value: a mask
  (wrapped ≥ 0) and (wrapped ≤ 49999), reduced by 'and' over the unit axis of the index column and broadcast over
  the row, selects between the gathered row and the fill. When every index lies in [0, 50000) no index is negative,
  so wrapping changes nothing, both comparisons hold at every edge, the mask is all ones and the selection returns the
  gathered array.
-/
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate
import Idealize.ShloMosaic.PureOps.Reduce

noncomputable section

namespace Cert.TakeFill

open Idealize.ShloMosaic Idealize.ShloMosaic.ValueIdx

variable {F : FTy → Type} [FloatOps F]

/-- The wrapped index column: `idx + 50000` where `idx < 0`, else `idx`, as an [E, 1] column. -/
def wrapCol (hb0 : (⟨0, ![]⟩ : Shape).BroadcastsInDim ⟨1, ![500000]⟩ (![] : Fin 0 → Fin 1))
    (hb1 : (⟨1, ![500000]⟩ : Shape).BroadcastsInDim ⟨2, ![500000, 1]⟩ (![0] : Fin 1 → Fin 2))
    (idx : IVec ⟨1, ![500000]⟩ 32) : IVec ⟨2, ![500000, 1]⟩ 32 :=
  broadcastInDim ⟨2, ![500000, 1]⟩ ![0] hb1
    (select (cmpi .slt idx (broadcastInDim ⟨1, ![500000]⟩ ![] hb0 (constantI ⟨0, ![]⟩ 32 0#32)))
      (addi idx (broadcastInDim ⟨1, ![500000]⟩ ![] hb0 (constantI ⟨0, ![]⟩ 32 50000#32))) idx)

/-- The take with fill: the gathered rows where the wrapped index is in [0, 49999], the fill elsewhere. -/
def takeFill (hb0 : (⟨0, ![]⟩ : Shape).BroadcastsInDim ⟨1, ![500000]⟩ (![] : Fin 0 → Fin 1))
    (hb1 : (⟨1, ![500000]⟩ : Shape).BroadcastsInDim ⟨2, ![500000, 1]⟩ (![0] : Fin 1 → Fin 2))
    (hb2 : (⟨0, ![]⟩ : Shape).BroadcastsInDim ⟨2, ![500000, 1]⟩ (![] : Fin 0 → Fin 2))
    (hb3 : (⟨1, ![1]⟩ : Shape).BroadcastsInDim ⟨2, ![1, 1]⟩ (![1] : Fin 1 → Fin 2))
    (hb4 : (⟨2, ![1, 1]⟩ : Shape).BroadcastsInDim ⟨2, ![500000, 1]⟩ (![0, 1] : Fin 2 → Fin 2))
    (hr : (⟨2, ![500000, 1]⟩ : Shape).ReducesTo [1] ⟨1, ![500000]⟩) (hS : 0 < (⟨0, ![]⟩ : Shape).numel)
    (hb5 : (⟨1, ![500000]⟩ : Shape).BroadcastsInDim ⟨2, ![500000, 128]⟩ (![0] : Fin 1 → Fin 2))
    (hb6 : (⟨0, ![]⟩ : Shape).BroadcastsInDim ⟨2, ![500000, 128]⟩ (![] : Fin 0 → Fin 2))
    (d : GatherDims ⟨2, ![50000, 128]⟩ ⟨2, ![500000, 1]⟩ ⟨2, ![500000, 128]⟩)
    (x : FVec F ⟨2, ![50000, 128]⟩ .f32) (idx : IVec ⟨1, ![500000]⟩ 32) : FVec F ⟨2, ![500000, 128]⟩ .f32 :=
  select
    (broadcastInDim ⟨2, ![500000, 128]⟩ ![0] hb5
      (Host.reduce IntOp.andi
        (andi (cmpi .sge (wrapCol hb0 hb1 idx) (broadcastInDim ⟨2, ![500000, 1]⟩ ![] hb2 (constantI ⟨0, ![]⟩ 32 0#32)))
          (cmpi .sle (wrapCol hb0 hb1 idx)
            (broadcastInDim ⟨2, ![500000, 1]⟩ ![0, 1] hb4 (broadcastInDim ⟨2, ![1, 1]⟩ ![1] hb3 (constantI ⟨1, ![1]⟩ 32 49999#32)))))
        (constantI ⟨0, ![]⟩ 1 1#1) hr hS))
    (Host.gather d x (wrapCol hb0 hb1 idx))
    (broadcastInDim ⟨2, ![500000, 128]⟩ ![] hb6 (constant ⟨0, ![]⟩ .f32 0x7FC00000#32))

/-- A left fold by 'and' that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, _, hi, h =>
    foldl_andi_one f l _ (IntOp.andi_eq_one.2 ⟨hi, h a (List.mem_cons_self ..)⟩)
      fun n hn => h n (List.mem_cons_of_mem _ hn)

/-- Where the index is not negative the wrapped column reads the index itself: a word that is ≥ 0 is not < 0,
    so the selection takes its second branch. -/
theorem wrapCol_apply (hb0 : (⟨0, ![]⟩ : Shape).BroadcastsInDim ⟨1, ![500000]⟩ (![] : Fin 0 → Fin 1))
    (hb1 : (⟨1, ![500000]⟩ : Shape).BroadcastsInDim ⟨2, ![500000, 1]⟩ (![0] : Fin 1 → Fin 2))
    (idx : IVec ⟨1, ![500000]⟩ 32) (p : Fin 500000) (q : Fin 1)
    (h : IntOp.cmpi .sge (idx (ix1 p)) 0#32 = 1#1) :
    wrapCol hb0 hb1 idx (ix2 p q) = idx (ix1 p) := by
  unfold wrapCol
  refine (broadcastInDim_apply _ _ _ (ix2 p q) (ix1 p) (fun a => match a with | ⟨0, _⟩ => rfl)).trans ?_
  rw [select_apply]
  have hn : ¬ (cmpi .slt idx (broadcastInDim ⟨1, ![500000]⟩ ![] hb0 (constantI ⟨0, ![]⟩ 32 0#32)) (ix1 p) = 1#1) := by
    show ¬ (IntOp.cmpi .slt (idx (ix1 p)) 0#32 = 1#1)
    rw [IntOp.cmpi_slt]
    rw [IntOp.cmpi_sge] at h
    omega
  exact if_neg hn

/-- With every index in [0, 50000) the take with fill is the gather at the wrapped (that is, unchanged) indices. -/
theorem takeFill_eq_gather
    (hb0 : (⟨0, ![]⟩ : Shape).BroadcastsInDim ⟨1, ![500000]⟩ (![] : Fin 0 → Fin 1))
    (hb1 : (⟨1, ![500000]⟩ : Shape).BroadcastsInDim ⟨2, ![500000, 1]⟩ (![0] : Fin 1 → Fin 2))
    (hb2 : (⟨0, ![]⟩ : Shape).BroadcastsInDim ⟨2, ![500000, 1]⟩ (![] : Fin 0 → Fin 2))
    (hb3 : (⟨1, ![1]⟩ : Shape).BroadcastsInDim ⟨2, ![1, 1]⟩ (![1] : Fin 1 → Fin 2))
    (hb4 : (⟨2, ![1, 1]⟩ : Shape).BroadcastsInDim ⟨2, ![500000, 1]⟩ (![0, 1] : Fin 2 → Fin 2))
    (hr : (⟨2, ![500000, 1]⟩ : Shape).ReducesTo [1] ⟨1, ![500000]⟩) (hS : 0 < (⟨0, ![]⟩ : Shape).numel)
    (hb5 : (⟨1, ![500000]⟩ : Shape).BroadcastsInDim ⟨2, ![500000, 128]⟩ (![0] : Fin 1 → Fin 2))
    (hb6 : (⟨0, ![]⟩ : Shape).BroadcastsInDim ⟨2, ![500000, 128]⟩ (![] : Fin 0 → Fin 2))
    (d : GatherDims ⟨2, ![50000, 128]⟩ ⟨2, ![500000, 1]⟩ ⟨2, ![500000, 128]⟩)
    (x : FVec F ⟨2, ![50000, 128]⟩ .f32) (idx : IVec ⟨1, ![500000]⟩ 32)
    (hidx : ∀ e : Fin 500000, IntOp.cmpi .sge (idx (ix1 e)) 0#32 = 1#1 ∧ IntOp.cmpi .slt (idx (ix1 e)) 50000#32 = 1#1) :
    takeFill hb0 hb1 hb2 hb3 hb4 hr hS hb5 hb6 d x idx = Host.gather d x (wrapCol hb0 hb1 idx) := by
  unfold takeFill
  funext j
  obtain ⟨p, q, rfl⟩ : ∃ (p : Fin 500000) (q : Fin 128), j = ix2 p q := ⟨j 0, j 1, eq_ix2 j⟩
  rw [select_apply]
  -- the mask at (p, q) is the 'and'-reduction of the two comparisons over row p of the index column
  have key : ∀ (c : BitVec 1) (a b : F .f32), c = 1#1 → Scalar.select c a b = a :=
    fun c a b h => h ▸ select_one a b
  refine key _ _ _ ?_
  refine (broadcastInDim_apply _ _ _ (ix2 p q) (ix1 p) (fun a => match a with | ⟨0, _⟩ => rfl)).trans ?_
  rw [Host.reduce_eq_foldl]
  refine foldl_andi_one _ _ _ rfl (fun n _ => ?_)
  obtain ⟨p', q', rfl⟩ : ∃ (p' : Fin 500000) (q' : Fin 1), n = ix2 p' q' := ⟨n 0, n 1, eq_ix2 n⟩
  have hw := wrapCol_apply hb0 hb1 idx p' q' (hidx p').1
  show IntOp.andi (IntOp.cmpi .sge (wrapCol hb0 hb1 idx (ix2 p' q')) 0#32)
    (IntOp.cmpi .sle (wrapCol hb0 hb1 idx (ix2 p' q')) 49999#32) = 1#1
  rw [hw, IntOp.andi_eq_one]
  refine ⟨(hidx p').1, ?_⟩
  -- ≤ 49999 from < 50000, on the signed readings
  have hlt := (hidx p').2
  rw [IntOp.cmpi_slt] at hlt
  rw [IntOp.cmpi_sle]
  have e1 : (50000#32 : BitVec 32).toInt = 50000 := by decide
  have e2 : (49999#32 : BitVec 32).toInt = 49999 := by decide
  omega

end Cert.TakeFill

end
-- ==== Proof.KernelHost.lean ====
/-
  The kernel program's host lines before the region, read back: the destination indices and the source rows.

  The region finds, in the buffer of the source rows, the take with fill of the node features at row 0 of the index
  array (each host line's result is its operation applied to the results of the lines before).
-/
import proofs.«414308_j41137196761318_2_alg».proof.Proof.Gen.KernelIdeal.Frame
import proofs.«414308_j41137196761318_2_alg».proof.Proof.KernelIdx
import proofs.«414308_j41137196761318_2_alg».proof.Proof.Take
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The destination indices as the region and the lines after it find them. -/
theorem V_dst (c : Dev nD) : (V m c main_v3 : IVec S500000 32) = idxRow1 m c := by
  dsimp only [V, V0]
  simp only [hostOps0, hostOps0_1, hostOps0_2, hostOps0_3, List.flatten_cons, List.flatten_nil, List.append_nil, List.cons_append,
    List.nil_append]
  after_results
  rfl

set_option maxHeartbeats 4000000 in
/-- The gathered source rows: the take with fill of the node features at the first index row. -/
theorem V_xs (c : Dev nD) : (V m c main_v4 : FVec F S500000x128 .f32)
    = Cert.TakeFill.takeFill bcast_S_S500000 bcast_S500000_S500000x1_0 bcast_S_S500000x1 bcast_S1_S1x1_1 bcast_S1x1_S500000x1_0_1
        reducesTo_S500000x1_S500000_d1 h_S_ bcast_S500000_S500000x128_0 bcast_S_S500000x128
        gather_S50000x128_S500000x1_S500000x128_1_0_n_n_0_1_1128 (m ((c : Thread nD τ).loc main_arg0)) (idxRow0 m c) := by
  dsimp only [V, V0]
  simp only [hostOps0, hostOps0_1, hostOps0_2, hostOps0_3, List.flatten_cons, List.flatten_nil, List.append_nil, List.cons_append,
    List.nil_append]
  after_results
  unfold Cert.TakeFill.takeFill Cert.TakeFill.wrapCol
  simp only [TRef.toBuf, TRef.ofBuf, cast_eq]
  rfl

end Cert.KernelIdeal.KHost

end
-- ==== Proof.KernelHostB.lean ====
/-
  The kernel program's host lines before the region, read back: the destination rows.

  The region finds, in the buffer of the destination rows, the take with fill of the node features at row 1 of the
  index array.
-/
import proofs.«414308_j41137196761318_2_alg».proof.Proof.Gen.KernelIdeal.Frame
import proofs.«414308_j41137196761318_2_alg».proof.Proof.KernelIdx
import proofs.«414308_j41137196761318_2_alg».proof.Proof.Take
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Idealize.ShloMosaic.ValueIdx

variable {F : FTy → Type} [FloatOps F]
variable (m : (ℓ : Loc nD τ sig) → Buf (Elt F) ℓ) (ρ : Dev nD → PrngReg)

set_option maxHeartbeats 8000000 in
/-- The gathered destination rows: the take with fill of the node features at the second index row. -/
theorem V_xd (c : Dev nD) : (V m c main_v5 : FVec F S500000x128 .f32)
    = Cert.TakeFill.takeFill bcast_S_S500000 bcast_S500000_S500000x1_0 bcast_S_S500000x1 bcast_S1_S1x1_1 bcast_S1x1_S500000x1_0_1
        reducesTo_S500000x1_S500000_d1 h_S_ bcast_S500000_S500000x128_0 bcast_S_S500000x128
        gather_S50000x128_S500000x1_S500000x128_1_0_n_n_0_1_1128 (m ((c : Thread nD τ).loc main_arg0)) (idxRow1 m c) := by
  dsimp only [V, V0]
  simp only [hostOps0, hostOps0_1, hostOps0_2, hostOps0_3, List.flatten_cons, List.flatten_nil, List.append_nil, List.cons_append,
    List.nil_append]
  after_results
  unfold Cert.TakeFill.takeFill Cert.TakeFill.wrapCol
  simp only [TRef.toBuf, TRef.ofBuf, cast_eq]
  rfl

end Cert.KernelIdeal.KHost

end
-- ==== Proof.KernelHostC.lean ====
/-
  The kernel program's host lines before the region, read back: the halves of the first-layer matrix and the bias rows.

  The upper half is rows 0 … 127 of the 256 × 128 matrix, the lower half rows 128 … 255; each bias vector is reshaped
  into a [1, 128] row.
-/
import proofs.«414308_j41137196761318_2_alg».proof.Proof.Gen.KernelIdeal.Frame
import Idealize.ShloMosaic.Lib.StableHlo.Run
import Idealize.ShloMosaic.Lib.Tactic
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Idealize.ShloMosaic.ValueIdx

variable {F : FTy → Type} [FloatOps F]
variable (m : (ℓ : Loc nD τ sig) → Buf (Elt F) ℓ) (ρ : Dev nD → PrngReg)

set_option maxHeartbeats 4000000 in
theorem V_w1a (c : Dev nD) : (V m c main_v6 : FVec F S128x128 .f32)
    = extractStridedSlice S128x128 ![0, 0] (m ((c : Thread nD τ).loc main_arg3)) slices_S256x128_S128x128_0_0 := by
  dsimp only [V, V0]
  simp only [hostOps0, hostOps0_1, hostOps0_2, hostOps0_3, List.flatten_cons, List.flatten_nil, List.append_nil, List.cons_append,
    List.nil_append]
  after_results

set_option maxHeartbeats 4000000 in
theorem V_w1b (c : Dev nD) : (V m c main_v7 : FVec F S128x128 .f32)
    = extractStridedSlice S128x128 ![128, 0] (m ((c : Thread nD τ).loc main_arg3)) slices_S256x128_S128x128_128_0 := by
  dsimp only [V, V0]
  simp only [hostOps0, hostOps0_1, hostOps0_2, hostOps0_3, List.flatten_cons, List.flatten_nil, List.append_nil, List.cons_append,
    List.nil_append]
  after_results

set_option maxHeartbeats 4000000 in
theorem V_b1 (c : Dev nD) : (V m c main_v8 : FVec F S1x128 .f32)
    = shapeCast _ (m ((c : Thread nD τ).loc main_arg4)) shapeCasts_S128_S1x128 := by
  dsimp only [V, V0]
  simp only [hostOps0, hostOps0_1, hostOps0_2, hostOps0_3, List.flatten_cons, List.flatten_nil, List.append_nil, List.cons_append,
    List.nil_append]
  after_results
  rfl

set_option maxHeartbeats 4000000 in
theorem V_b2 (c : Dev nD) : (V m c main_v9 : FVec F S1x128 .f32)
    = shapeCast _ (m ((c : Thread nD τ).loc main_arg6)) shapeCasts_S128_S1x128 := by
  dsimp only [V, V0]
  simp only [hostOps0, hostOps0_1, hostOps0_2, hostOps0_3, List.flatten_cons, List.flatten_nil, List.append_nil, List.cons_append,
    List.nil_append]
  after_results
  rfl

/-- The upper half of the first-layer matrix at (i, k) is the matrix at (i, k). -/
theorem w1a_apply (c : Dev nD) (i k : Fin 128) :
    (V m c main_v6 : FVec F S128x128 .f32) (ix2 i k)
      = (m ((c : Thread nD τ).loc main_arg3) : FVec F S256x128 .f32) (ix2 (⟨i.val, by omega⟩ : Fin 256) k) := by
  rw [V_w1a]
  exact slice2_axis0_apply 0 _ slices_S256x128_S128x128_0_0 i k _ (by show i.val = 0 + i.val; omega)

/-- The lower half of the first-layer matrix at (i, k) is the matrix at (128 + i, k). -/
theorem w1b_apply (c : Dev nD) (i k : Fin 128) :
    (V m c main_v7 : FVec F S128x128 .f32) (ix2 i k)
      = (m ((c : Thread nD τ).loc main_arg3) : FVec F S256x128 .f32) (ix2 (⟨128 + i.val, by omega⟩ : Fin 256) k) := by
  rw [V_w1b]
  exact slice2_axis0_apply 128 _ slices_S256x128_S128x128_128_0 i k _ rfl

/-- The first bias row at (0, k) is the bias vector at k. -/
theorem b1_apply (c : Dev nD) (k : Fin 128) :
    (V m c main_v8 : FVec F S1x128 .f32) (ix2 (0 : Fin 1) k) = (m ((c : Thread nD τ).loc main_arg4) : FVec F S128 .f32) (ix1 k) := by
  rw [V_b1]
  exact shapeCast_a_1a_apply _ shapeCasts_S128_S1x128 (0 : Fin 1) k

/-- The second bias row at (0, k) is the bias vector at k. -/
theorem b2_apply (c : Dev nD) (k : Fin 128) :
    (V m c main_v9 : FVec F S1x128 .f32) (ix2 (0 : Fin 1) k) = (m ((c : Thread nD τ).loc main_arg6) : FVec F S128 .f32) (ix1 k) := by
  rw [V_b2]
  exact shapeCast_a_1a_apply _ shapeCasts_S128_S1x128 (0 : Fin 1) k

end Cert.KernelIdeal.KHost

end
-- ==== Proof.KernelTail.lean ====
/-
  The kernel program's host lines after the region, read back.

  After the region the program scatter-adds the region's result array (the edges' messages) into a zero array at the
  destination indices and adds the node features: the program's result is that sum, with the result array at whatever
  the region left in it.
-/
import proofs.«414308_j41137196761318_2_alg».proof.Proof.Gen.KernelIdeal.Frame
import proofs.«414308_j41137196761318_2_alg».proof.Proof.KernelIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Idealize.ShloMosaic.ValueIdx

variable {F : FTy → Type} [FloatOps F]
variable (m : (ℓ : Loc nD τ sig) → Buf (Elt F) ℓ) (ρ : Dev nD → PrngReg)

set_option maxHeartbeats 4000000 in
/-- The program's result buffer after the lines that follow the region. -/
theorem tail_eq (c : Dev nD) :
    Pipeline.afterTail₀ cfgs (dats m) 0 (V0 m) [hostOps1] c main_v14
      = addf (V m c main_arg0)
          (Host.scatterAdd scatter_S50000x128_S500000x1_S500000x128_1_0_0_1
            (broadcastInDim S50000x128 ![] bcast_S_S50000x128 (constant S_ .f32 0x00000000#32))
            (broadcastInDim S500000x1 ![0] bcast_S500000_S500000x1_0 (V m c main_v3))
            ((dats m 0 c).arrAt 8 cfg0.N)) := by
  unfold Pipeline.afterTail₀
  show StableHlo.after hostOps1 _ (Proc.devRef .tc main_v14) = _
  after_results
  have h0 : Pipeline.withArrays (cfgs 0).spec c (V0 m c) (fun w => (dats m 0 c).arrAt w (cfgs 0).N) (Proc.devRef .tc main_arg0)
      = V0 m c (Proc.devRef .tc main_arg0) :=
    Pipeline.withArrays_of_ne _ c (V0 m c) _ main_arg0 (by exact (by decide : ∀ w, Pipeline.arrRef spec0 w ≠ main_arg0))
  have h3 : Pipeline.withArrays (cfgs 0).spec c (V0 m c) (fun w => (dats m 0 c).arrAt w (cfgs 0).N) (Proc.devRef .tc main_v3)
      = V0 m c (Proc.devRef .tc main_v3) :=
    Pipeline.withArrays_of_ne _ c (V0 m c) _ main_v3 (by exact (by decide : ∀ w, Pipeline.arrRef spec0 w ≠ main_v3))
  have h10 : Pipeline.withArrays (cfgs 0).spec c (V0 m c) (fun w => (dats m 0 c).arrAt w (cfgs 0).N) (Proc.devRef .tc main_v10)
      = (dats m 0 c).arrAt 8 cfg0.N :=
    Pipeline.withArrays_arr spec0 launch0.win.arr_inj c (V0 m c) _ 8
  rw [h0, h3, h10]

end Cert.KernelIdeal.KHost

end
-- ==== Proof.RefMsg.lean ====
/-
  The reference's message array is the message function of its two gathered arrays.

  The reference joins the gathered source and destination rows into one [E, 256] array and multiplies by the whole
  256 × 128 first-layer matrix: at (e, k) the sum over 256 terms splits into the sum over the source half against the
  matrix's upper 128 rows plus the sum over the destination half against its lower 128 rows. The bias vectors are
  broadcast through a [1, 128] row; the edge weights through their [E, 1] column.
-/
import proofs.«414308_j41137196761318_2_alg».proof.Proof.Gen.ReferenceIdeal.Read
import proofs.«414308_j41137196761318_2_alg».proof.Proof.Spec
import Idealize.ShloMosaic.Lib.Pipeline.Value
import Idealize.ShloMosaic.Lib.ValueLayout

noncomputable section

namespace Cert.ReferenceIdeal.RefMsg

open Cert.ReferenceIdeal Cert.ReferenceIdeal.Read Idealize.ShloMosaic Idealize.ShloMosaic.ValueIdx

/-- The joined array at a column of its first half is the first array at that column. -/
theorem cat_left (h : Shape.Concatenates [S500000x128, S500000x128] S500000x256 1)
    (a b : FVec Ideal S500000x128 .f32) (e : Fin 500000) (i : Fin 128) :
    concatenate S500000x256 1 [⟨S500000x128, a⟩, ⟨S500000x128, b⟩] h (ix2 e (⟨i.val, by omega⟩ : Fin 256))
      = a (ix2 e i) :=
  concatenate_pair_apply_left (1 : Fin S500000x256.rank) a b h _ rfl (ix2 e i)
    (fun c => by match c with | ⟨0, _⟩ => rfl | ⟨1, _⟩ => rfl)

/-- The joined array at a column of its second half is the second array at that column less 128. -/
theorem cat_right (h : Shape.Concatenates [S500000x128, S500000x128] S500000x256 1)
    (a b : FVec Ideal S500000x128 .f32) (e : Fin 500000) (i : Fin 128) :
    concatenate S500000x256 1 [⟨S500000x128, a⟩, ⟨S500000x128, b⟩] h (ix2 e (⟨128 + i.val, by omega⟩ : Fin 256))
      = b (ix2 e i) :=
  concatenate_pair_apply_right (1 : Fin S500000x256.rank) a b h _ rfl rfl (ix2 e i)
    (fun c hc => by match c, hc with | ⟨0, _⟩, _ => rfl | ⟨1, _⟩, hc => exact absurd rfl hc)
    (by show i.val + 128 = 128 + i.val; omega)

/-- The first product's left index at edge `e`, term `c`: row `e`, column `c` of the joined array. -/
theorem lidx19 (e : Fin 500000) (k : Fin 128) (c : Fin 256) : lidx_main_v19 (ix2 e k) c = ix2 e c :=
  funext fun a => by match a with | ⟨0, _⟩ => rfl | ⟨1, _⟩ => rfl

/-- The first product's right index at hidden unit `k`, term `c`: row `c`, column `k` of the matrix. -/
theorem ridx19 (e : Fin 500000) (k : Fin 128) (c : Fin 256) : ridx_main_v19 (ix2 e k) c = ix2 c k :=
  funext fun a => by match a with | ⟨0, _⟩ => rfl | ⟨1, _⟩ => rfl

/-- The second product's left index at edge `e`, term `c`: row `e`, column `c` of the hidden layer. -/
theorem lidx24 (e : Fin 500000) (q : Fin 128) (c : Fin 128) : lidx_main_v24 (ix2 e q) c = ix2 e c :=
  funext fun a => by match a with | ⟨0, _⟩ => rfl | ⟨1, _⟩ => rfl

/-- The second product's right index at output column `q`, term `c`: row `c`, column `q` of the matrix. -/
theorem ridx24 (e : Fin 500000) (q : Fin 128) (c : Fin 128) : ridx_main_v24 (ix2 e q) c = ix2 c q :=
  funext fun a => by match a with | ⟨0, _⟩ => rfl | ⟨1, _⟩ => rfl

/-- A bias broadcast through its [1, 128] row to the [E, 128] array reads the bias at the column. -/
theorem bias_idx20 (e : Fin 500000) (k : Fin 128) : idx_main_v20 (idx_main_v21 (ix2 e k)) = ix1 k :=
  funext fun a => by match a with | ⟨0, _⟩ => rfl

/-- The same for the second layer's bias. -/
theorem bias_idx25 (e : Fin 500000) (k : Fin 128) : idx_main_v25 (idx_main_v26 (ix2 e k)) = ix1 k :=
  funext fun a => by match a with | ⟨0, _⟩ => rfl

/-- The edge weights broadcast along the columns read the weight of the row. -/
theorem ea_idx28 (e : Fin 500000) (q : Fin 128) : idx_main_v28 (ix2 e q) = ix2 e (0 : Fin 1) :=
  funext fun a => by match a with | ⟨0, _⟩ => rfl | ⟨1, _⟩ => rfl

/-- The reference's rectified first layer at edge `e`, unit `k` is the hidden unit of the two gathered arrays. -/
theorem ref_hidden (x0 : FVec Ideal S50000x128 .f32) (x1 : IVec S2x500000 32)
    (x3 : FVec Ideal S256x128 .f32) (x4 : FVec Ideal S128 .f32)
    (W1a W1b : FVec Ideal ⟨2, ![128, 128]⟩ .f32) (b1r : FVec Ideal ⟨2, ![1, 128]⟩ .f32)
    (hW1a : ∀ i k : Fin 128, W1a (ix2 i k) = x3 (ix2 (⟨i.val, by omega⟩ : Fin 256) k))
    (hW1b : ∀ i k : Fin 128, W1b (ix2 i k) = x3 (ix2 (⟨128 + i.val, by omega⟩ : Fin 256) k))
    (hb1 : ∀ k : Fin 128, b1r (ix2 (0 : Fin 1) k) = x4 (ix1 k)) (e : Fin 500000) (k : Fin 128) :
    val_main_v23 (F := Ideal) x0 x1 x3 x4 (ix2 e k)
      = Cert.EdgeMlp.hidden (E := 500000) (Ideal.ofBits .f32 0x00000000#32) (val_main_v10 (F := Ideal) x0 x1)
          (val_main_v17 (F := Ideal) x0 x1) W1a W1b b1r e k := by
  rw [val_main_v23_apply, val_main_v22_apply, val_main_v19_apply, val_main_v21_apply, val_main_v20_apply,
    val_main_call0_v0_apply, val_main_call0_cst_apply, bias_idx20, Cert.EdgeMlp.sum_split]
  unfold val_main_v18 Cert.EdgeMlp.hidden
  generalize val_main_v10 (F := Ideal) x0 x1 = xs
  generalize val_main_v17 (F := Ideal) x0 x1 = xd
  refine congrArg₂ max (congrArg₂ (· + ·) (congrArg₂ (· + ·) (Finset.sum_congr rfl fun i _ => ?_)
    (Finset.sum_congr rfl fun i _ => ?_)) (hb1 k).symm) rfl
  · rw [lidx19, ridx19, cat_left, hW1a]
  · rw [lidx19, ridx19, cat_right, hW1b]

/-- The reference's scaled perceptron output, as the message function of the two gathered arrays, for any split
    `W1a`, `W1b` of the first-layer matrix into its upper and lower halves and any [1, 128] rows holding the biases. -/
theorem ref_msg (x0 : FVec Ideal S50000x128 .f32) (x1 : IVec S2x500000 32) (x2 : FVec Ideal S500000x1 .f32)
    (x3 : FVec Ideal S256x128 .f32) (x4 : FVec Ideal S128 .f32) (x5 : FVec Ideal S128x128 .f32) (x6 : FVec Ideal S128 .f32)
    (W1a W1b : FVec Ideal ⟨2, ![128, 128]⟩ .f32) (b1r b2r : FVec Ideal ⟨2, ![1, 128]⟩ .f32)
    (hW1a : ∀ i k : Fin 128, W1a (ix2 i k) = x3 (ix2 (⟨i.val, by omega⟩ : Fin 256) k))
    (hW1b : ∀ i k : Fin 128, W1b (ix2 i k) = x3 (ix2 (⟨128 + i.val, by omega⟩ : Fin 256) k))
    (hb1 : ∀ k : Fin 128, b1r (ix2 (0 : Fin 1) k) = x4 (ix1 k))
    (hb2 : ∀ k : Fin 128, b2r (ix2 (0 : Fin 1) k) = x6 (ix1 k)) :
    val_main_v29 (F := Ideal) x0 x1 x2 x3 x4 x5 x6
      = Cert.EdgeMlp.msg (E := 500000) (Ideal.ofBits .f32 0x00000000#32) (val_main_v10 (F := Ideal) x0 x1)
          (val_main_v17 (F := Ideal) x0 x1) x2 W1a W1b b1r x5 b2r := by
  funext j
  obtain ⟨e, q, rfl⟩ : ∃ (e : Fin 500000) (q : Fin 128), j = ix2 e q := ⟨j 0, j 1, eq_ix2 j⟩
  rw [Cert.EdgeMlp.msg_apply, val_main_v29_apply, val_main_v27_apply, val_main_v24_apply, val_main_v28_apply,
    val_main_v26_apply, val_main_v25_apply, bias_idx25, ea_idx28]
  refine congrArg₂ (· * ·) (congrArg₂ (· + ·) (Finset.sum_congr rfl fun k _ => ?_) (hb2 q).symm) rfl
  rw [lidx24, ridx24, ref_hidden x0 x1 x3 x4 W1a W1b b1r hW1a hW1b hb1]

end Cert.ReferenceIdeal.RefMsg

end
-- ==== Proof.PreDecode.lean ====
/-
  The precondition, read back: every entry of the edge-index array lies in [0, 50000).

  The precondition is a conjunction of 'all' reductions; its last two conjuncts say that every entry of the [2, E]
  index array compares ≥ 0 and < 50000 (signed). A conjunction of bits that is 1 has every conjunct 1, and an
  'and'-reduction over all axes that is 1 had a 1 at every index.
-/
import proofs.«414308_j41137196761318_2_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable {F : FTy → Type} [FloatOps F]

/-- The rank-0 shape has exactly one index. -/
local instance : Subsingleton S_.Idx := ⟨fun a b => funext fun d => d.elim0⟩

/-- Under the precondition every edge index is, as a signed word, at least 0 and less than 50000. -/
theorem idx_in_range (a0 : FVec F S50000x128 .f32) (a1 : IVec S2x500000 32) (a2 : FVec F S500000x1 .f32)
    (a3 : FVec F S256x128 .f32) (a4 : FVec F S128 .f32) (a5 : FVec F S128x128 .f32) (a6 : FVec F S128 .f32)
    (h : fn (F := F) a0 a1 a2 a3 a4 a5 a6 = fun _ => 1#1) (i : S2x500000.Idx) :
    IntOp.cmpi .sge (a1 i) 0#32 = 1#1 ∧ IntOp.cmpi .slt (a1 i) 50000#32 = 1#1 := by
  have h0 := congrFun h ValueIdx.ix0
  dsimp only [fn, fn_part1, fn_part2] at h0
  obtain ⟨h1, hlt⟩ := IntOp.andi_eq_one.1 h0
  obtain ⟨-, hge⟩ := IntOp.andi_eq_one.1 h1
  have e1 := Host.reduce_andi_all _ _ _ _ _ hge i
  have e2 := Host.reduce_andi_all _ _ _ _ _ hlt i
  exact ⟨e1, e2⟩

end Cert.Pre_finite_inputs.Decode

end
-- ==== Proof.Claims.lean ====
/-
  The claims.

  At the ideal instance both programs compute, for every node, its features plus the sum of the messages of the edges
  that point to it. The kernel program computes the messages blockwise in its region from rows it takes (with fill) out
  of the node features; the reference computes them with one product over the joined rows from rows it gathers. Where
  every edge index lies in [0, 50000) — the precondition — the take with fill is the gather, the two message arrays are
  one array (Cert.EdgeMlp.msg of the same operands), and the two programs then apply the same scatter-add and sum.
-/
import proofs.«414308_j41137196761318_2_alg».proof.Defs
import proofs.«414308_j41137196761318_2_alg».proof.Proof.Gen.Kernel.Frame
import proofs.«414308_j41137196761318_2_alg».proof.Proof.Gen.KernelIdeal.Frame
import proofs.«414308_j41137196761318_2_alg».proof.Proof.Gen.ReferenceIdeal.Run
import proofs.«414308_j41137196761318_2_alg».proof.Proof.Gen.ReferenceIdeal.Read
import proofs.«414308_j41137196761318_2_alg».proof.Proof.Gen.Pre_finite_inputs
import proofs.«414308_j41137196761318_2_alg».proof.Proof.KernelValue
import proofs.«414308_j41137196761318_2_alg».proof.Proof.KernelHost
import proofs.«414308_j41137196761318_2_alg».proof.Proof.KernelHostB
import proofs.«414308_j41137196761318_2_alg».proof.Proof.KernelHostC
import proofs.«414308_j41137196761318_2_alg».proof.Proof.KernelTail
import proofs.«414308_j41137196761318_2_alg».proof.Proof.RefMsg
import proofs.«414308_j41137196761318_2_alg».proof.Proof.PreDecode

set_option maxRecDepth 16384

noncomputable section

open Idealize.ShloMosaic Idealize.ShloMosaic.TcCoe Idealize.SL.Sem
open Idealize.ShloMosaic.Pipeline (Dat)

namespace Cert.Proof.Claims

open Cert.KernelIdeal Cert.KernelIdeal.Gen Idealize.ShloMosaic.ValueIdx

variable (m : (ℓ : Loc nD τ sig) → Buf (Elt Ideal) ℓ) (ρ : Dev nD → PrngReg)

/-- The kernel program's arguments on core `c`, each at its literal type. -/
abbrev A0 (c : Dev nD) : FVec Ideal S50000x128 .f32 := m ((c : Thread nD τ).loc main_arg0)
abbrev A1 (c : Dev nD) : IVec S2x500000 32 := m ((c : Thread nD τ).loc main_arg1)
abbrev A2 (c : Dev nD) : FVec Ideal S500000x1 .f32 := m ((c : Thread nD τ).loc main_arg2)
abbrev A3 (c : Dev nD) : FVec Ideal S256x128 .f32 := m ((c : Thread nD τ).loc main_arg3)
abbrev A4 (c : Dev nD) : FVec Ideal S128 .f32 := m ((c : Thread nD τ).loc main_arg4)
abbrev A5 (c : Dev nD) : FVec Ideal S128x128 .f32 := m ((c : Thread nD τ).loc main_arg5)
abbrev A6 (c : Dev nD) : FVec Ideal S128 .f32 := m ((c : Thread nD τ).loc main_arg6)

/-- The common result: the reference's function of the arguments. -/
abbrev result (c : Dev nD) : FVec Ideal S50000x128 .f32 :=
  Cert.ReferenceIdeal.Read.val_main_v33 (F := Ideal) (A0 m c) (A1 m c) (A2 m c) (A3 m c) (A4 m c) (A5 m c) (A6 m c)

/-- Under the precondition every source index is in [0, 50000). -/
theorem row0_in_range (hpre : Cert.Pre_KernelIdeal m) (c : Dev nD) (e : Fin 500000) :
    IntOp.cmpi .sge (KHost.idxRow0 m c (ix1 e)) 0#32 = 1#1 ∧ IntOp.cmpi .slt (KHost.idxRow0 m c (ix1 e)) 50000#32 = 1#1 := by
  rw [KHost.idxRow0_apply]
  exact Cert.Pre_finite_inputs.Decode.idx_in_range _ _ _ _ _ _ _ (hpre c) _

/-- Under the precondition every destination index is in [0, 50000). -/
theorem row1_in_range (hpre : Cert.Pre_KernelIdeal m) (c : Dev nD) (e : Fin 500000) :
    IntOp.cmpi .sge (KHost.idxRow1 m c (ix1 e)) 0#32 = 1#1 ∧ IntOp.cmpi .slt (KHost.idxRow1 m c (ix1 e)) 50000#32 = 1#1 := by
  rw [KHost.idxRow1_apply]
  exact Cert.Pre_finite_inputs.Decode.idx_in_range _ _ _ _ _ _ _ (hpre c) _

/-- The source rows the region finds are the rows the reference gathers. -/
theorem xs_eq (hpre : Cert.Pre_KernelIdeal m) (c : Dev nD) :
    KVal.xsArr m c = Cert.ReferenceIdeal.Read.val_main_v10 (F := Ideal) (A0 m c) (A1 m c) := by
  show (V m c main_v4 : FVec Ideal S500000x128 .f32) = _
  rw [KHost.V_xs m c]
  exact (Cert.TakeFill.takeFill_eq_gather _ _ _ _ _ _ _ _ _ _ _ _ (row0_in_range m hpre c)).trans rfl

/-- The destination rows the region finds are the rows the reference gathers. -/
theorem xd_eq (hpre : Cert.Pre_KernelIdeal m) (c : Dev nD) :
    KVal.xdArr m c = Cert.ReferenceIdeal.Read.val_main_v17 (F := Ideal) (A0 m c) (A1 m c) := by
  show (V m c main_v5 : FVec Ideal S500000x128 .f32) = _
  rw [KHost.V_xd m c]
  exact (Cert.TakeFill.takeFill_eq_gather _ _ _ _ _ _ _ _ _ _ _ _ (row1_in_range m hpre c)).trans rfl

/-- The message array of the kernel's region is the reference's message array. -/
theorem msg_eq (hpre : Cert.Pre_KernelIdeal m) (c : Dev nD) :
    KVal.msgArr m c = Cert.ReferenceIdeal.Read.val_main_v29 (F := Ideal) (A0 m c) (A1 m c) (A2 m c) (A3 m c) (A4 m c) (A5 m c) (A6 m c) := by
  unfold KVal.msgArr
  rw [xs_eq m hpre c, xd_eq m hpre c]
  have h2 : KVal.eaArr m c = A2 m c := V_main_arg2 m c
  have h5 : KVal.w2Arr m c = A5 m c := V_main_arg5 m c
  rw [h2, h5]
  exact (Cert.ReferenceIdeal.RefMsg.ref_msg (A0 m c) (A1 m c) (A2 m c) (A3 m c) (A4 m c) (A5 m c) (A6 m c)
    (KVal.w1aArr m c) (KVal.w1bArr m c) (KVal.b1Arr m c) (KVal.b2Arr m c)
    (KHost.w1a_apply m c) (KHost.w1b_apply m c) (KHost.b1_apply m c) (KHost.b2_apply m c)).symm

/-- What the kernel program leaves in its result buffer. -/
theorem kernel_result (hpre : Cert.Pre_KernelIdeal m) (c : Dev nD) :
    Pipeline.afterTail₀ cfgs (dats m) 0 (V0 m) [hostOps1] c main_v14 = result m c := by
  rw [KHost.tail_eq m c, KVal.final m c, msg_eq m hpre c, V_main_arg0 m c, KHost.V_dst m c]
  rfl

/-- The kernel program's run: the result buffer at the common result, the arguments unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v14 (Pipeline.mem_restRefs_of main_v14 (by decide) (by decide))).trans (kernel_result m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c)⟩)
    (run_main m ρ)

end Cert.Proof.Claims

namespace Cert.Proof.Claims

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the reference's function of the arguments. -/
theorem algebraic : Cert.algebraic_KernelIdeal_ReferenceIdeal := by
  intro m ρ m' ρ' hpre hagree
  refine ⟨fun c => result m c, kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.ReferenceIdeal.Read.val_main_v33_eq _ _ _ _ _ _ _

end Cert.Proof.Claims

end
-- ==== Proof.lean ====
/-
  Cert.Claim for the edge-message kernel: the three programs run and keep their arguments, the idealized kernel is the
  kernel's own text read over the extended reals (no rewrite was applied, so nothing is owed for it), and the idealized
  kernel and the idealized reference end with equal results. The mathematics is in the modules this one imports:
  Spec (the message function), Body and KernelValue (the region computes it blockwise), RefMsg (the reference computes
  it), Take and PreDecode (indices in range make the take with fill the gather), Claims (the assembly).
-/
import proofs.«414308_j41137196761318_2_alg».proof.Defs
import proofs.«414308_j41137196761318_2_alg».proof.Proof.Gen.Kernel
import proofs.«414308_j41137196761318_2_alg».proof.Proof.Gen.Kernel.Skeleton
import proofs.«414308_j41137196761318_2_alg».proof.Proof.Gen.Kernel.Launch
import proofs.«414308_j41137196761318_2_alg».proof.Proof.Gen.Kernel.Points
import proofs.«414308_j41137196761318_2_alg».proof.Proof.Gen.Kernel.Frame
import proofs.«414308_j41137196761318_2_alg».proof.Proof.Gen.KernelIdeal
import proofs.«414308_j41137196761318_2_alg».proof.Proof.Gen.KernelIdeal.Skeleton
import proofs.«414308_j41137196761318_2_alg».proof.Proof.Gen.KernelIdeal.Launch
import proofs.«414308_j41137196761318_2_alg».proof.Proof.Gen.KernelIdeal.Points
import proofs.«414308_j41137196761318_2_alg».proof.Proof.Gen.KernelIdeal.Frame
import proofs.«414308_j41137196761318_2_alg».proof.Proof.Gen.ReferenceIdeal
import proofs.«414308_j41137196761318_2_alg».proof.Proof.Gen.Pre_finite_inputs
import proofs.«414308_j41137196761318_2_alg».proof.Proof.Gen.ReferenceIdeal.Run
import proofs.«414308_j41137196761318_2_alg».proof.Proof.Gen.ReferenceIdeal.Read
import proofs.«414308_j41137196761318_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
